-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S262144 : Shape := ⟨1, ![262144]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_arg3 : IVec S262144 32) (main_v10 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v10 main_v16
  let main_c_6 : IVec S_ 32 := constantI S_ 32 0#32
  let main_v18 : IVec S262144 32 := broadcastInDim S262144 ![] bcast_S_S262144 main_c_6
  let main_v19 : IVec S262144 1 := cmpi .sge main_arg3 main_v18
  let main_c_7 : IVec S_ 32 := constantI S_ 32 16384#32
  let main_v20 : IVec S262144 32 := broadcastInDim S262144 ![] bcast_S_S262144 main_c_7
  let main_v21 : IVec S262144 1 := cmpi .slt main_arg3 main_v20
  let main_v22 : IVec S262144 1 := andi main_v19 main_v21
  let main_c_8 : IVec S_ 1 := constantI S_ 1 1#1
  let main_v23 : IVec S_ 1 := (fun x v => Host.reduce IntOp.andi x v reducesTo_S262144_S_d0 h_S_) main_v22 main_c_8
  let main_v24 : IVec S_ 1 := andi main_v17 main_v23
  main_v24

def fn {F : FTy → Type} [FloatOps F] (main_arg0 : FVec F S16384x256 .f32) (main_arg1 : IVec S262144 32) (main_arg2 : IVec S262144 32) (main_arg3 : IVec S262144 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 16384#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  let main_c_3 : IVec S_ 32 := constantI S_ 32 0#32
  let main_v11 : IVec S262144 32 := broadcastInDim S262144 ![] bcast_S_S262144 main_c_3
  let main_v12 : IVec S262144 1 := cmpi .sge main_arg2 main_v11
  let main_c_4 : IVec S_ 32 := constantI S_ 32 16384#32
  let main_v13 : IVec S262144 32 := broadcastInDim S262144 ![] bcast_S_S262144 main_c_4
  let main_v14 : IVec S262144 1 := cmpi .slt main_arg2 main_v13
  let main_v15 : IVec S262144 1 := andi main_v12 main_v14
  let main_c_5 : IVec S_ 1 := constantI S_ 1 1#1
  fn_part1 (F := F) main_arg3 main_v10 main_v15 main_c_5
-- ==== Kernel.lean ====
abbrev S16384x256 : Shape := ⟨2, ![16384, 256]⟩
abbrev S262144 : Shape := ⟨1, ![262144]⟩
abbrev S_ : Shape := ⟨0, ![]⟩
abbrev S256 : Shape := ⟨1, ![256]⟩
abbrev S256x1 : Shape := ⟨2, ![256, 1]⟩
abbrev S768x1 : Shape := ⟨2, ![768, 1]⟩
abbrev S768x2048 : Shape := ⟨2, ![768, 2048]⟩
abbrev S768x256 : Shape := ⟨2, ![768, 256]⟩
abbrev S2048x256 : Shape := ⟨2, ![2048, 256]⟩
abbrev S256x256 : Shape := ⟨2, ![256, 256]⟩

abbrev nBuf : Space → Nat
  | .hbm => 34
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S16384x256, .bf16⟩
  | .hbm, ⟨29, _⟩ => ⟨S262144, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256, .i32⟩
  | .local _ .vmem, ⟨1, _⟩ => ⟨S256, .i32⟩
  | .local _ .vmem, ⟨2, _⟩ => ⟨S256, .i32⟩
  | .local _ .vmem, ⟨3, _⟩ => ⟨S256, .i32⟩
  | .local _ .vmem, ⟨4, _⟩ => ⟨S256, .i32⟩
  | .local _ .vmem, ⟨5, _⟩ => ⟨S256, .i32⟩
  | .local _ .vmem, ⟨6, _⟩ => ⟨S16384x256, .bf16⟩
  | .local _ .vmem, ⟨7, _⟩ => ⟨S256, .f32⟩
  | .local _ .vmem, ⟨8, _⟩ => ⟨S256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_c_3 : Ref sig .tc := ⟨.hbm, 20, rfl⟩
abbrev main_c_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_cst_5 : Ref sig .tc := ⟨.hbm, 32, rfl⟩
abbrev main_v6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![1024], ![false]⟩

def k0_mult1 : BitVec 32 :=
  let c0_i32 : BitVec 32 := 0#32
  let c2048_i32 : BitVec 32 := 2048#32
  let v12 : BitVec 32 := Scalar.muli c0_i32 c2048_i32
  v12
def k0_off1 (c0_i32 : BitVec 32) : Fin 2 → Nat :=
  let c2048_i32 : BitVec 32 := 2048#32
  let v12 : BitVec 32 := Scalar.muli c0_i32 c2048_i32
  let v13 : BitVec 32 := v12
  let v21 : Index := Scalar.indexCast v13
  let c0_2 : Index := 0#32
  ![v21.toNat, 0]
def k0_mult2 : BitVec 32 :=
  let c1_i32 : BitVec 32 := 1#32
  let c2048_i32_4 : BitVec 32 := 2048#32
  let v26 : BitVec 32 := Scalar.muli c1_i32 c2048_i32_4
  v26
def k0_mult3 : BitVec 32 :=
  let c2_i32 : BitVec 32 := 2#32
  let c2048_i32_7 : BitVec 32 := 2048#32
  let v40 : BitVec 32 := Scalar.muli c2_i32 c2048_i32_7
  v40
def k0_mult4 : BitVec 32 :=
  let c3_i32 : BitVec 32 := 3#32
  let c2048_i32_10 : BitVec 32 := 2048#32
  let v54 : BitVec 32 := Scalar.muli c3_i32 c2048_i32_10
  v54
def k0_mult5 : BitVec 32 :=
  let c4_i32 : BitVec 32 := 4#32
  let c2048_i32_13 : BitVec 32 := 2048#32
  let v68 : BitVec 32 := Scalar.muli c4_i32 c2048_i32_13
  v68
def k0_mult6 : BitVec 32 :=
  let c5_i32 : BitVec 32 := 5#32
  let c2048_i32_16 : BitVec 32 := 2048#32
  let v82 : BitVec 32 := Scalar.muli c5_i32 c2048_i32_16
  v82
def k0_mult7 : BitVec 32 :=
  let c6_i32 : BitVec 32 := 6#32
  let c2048_i32_19 : BitVec 32 := 2048#32
  let v96 : BitVec 32 := Scalar.muli c6_i32 c2048_i32_19
  v96
def k0_mult8 : BitVec 32 :=
  let c7_i32 : BitVec 32 := 7#32
  let c2048_i32_22 : BitVec 32 := 2048#32
  let v110 : BitVec 32 := Scalar.muli c7_i32 c2048_i32_22
  v110
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bitsLt_bf16_f32 : FTy.bits .bf16 < FTy.bits .f32
  inb_S256_S256_0 : ∀ a, (![0] : Fin 1 → Nat) a + S256.size a ≤ S256.size a
  h_S256 : 0 < S256.numel
  shapeCasts_S256_S256 : S256.ShapeCasts S256
  shapeCasts_S256_S256x1 : S256.ShapeCasts S256x1
  concatenates_S256x1_S256x1_S256x1_S768x1_d0 : Shape.Concatenates [S256x1, S256x1, S256x1] S768x1 0
  iota_S768x2048_d1_w32 : S768x2048.Iotas .tc 32 [1]
  broadcasts_S768x1_S768x2048 : S768x1.Broadcasts S768x2048
  natLt_1_32 : 1 < 32
  h_S2048x256 : 0 < S2048x256.numel
  shapeCasts_S2048x256_S2048x256 : S2048x256.ShapeCasts S2048x256
  slices_S768x256_o0_0_S256x256 : S768x256.Slices ![0, 0] S256x256
  slices_S768x256_o256_0_S256x256 : S768x256.Slices ![256, 0] S256x256
  slices_S768x256_o512_0_S256x256 : S768x256.Slices ![512, 0] S256x256
  reduces_S256x256_S256 : S256x256.Reduces [1] S256
  reducesTo_S262144_S_d0 : S262144.ReducesTo [0] S_
  h_S_ : 0 < S_.numel
  dot_S768x2048_S2048x256_S768x256_1_0_0_1_n_n_wf : DotDims.WF S768x2048 S2048x256 S768x256 [1] [0] [0] [1] [] []
  hrank0 : 0 < grid0.rank
  k0_mult1_dvd : 2048 ∣ k0_mult1.toNat
  k0_off1_inb : ∀ (r : Fin 8), ∀ a, (k0_off1 (BitVec.ofNat 32 r.val)) a + S2048x256.size a ≤ S16384x256.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256.size a ≤ S262144.size a
  hwx0_0 : ∀ i : grid0.Coords, EltTy.bits .i32 = 32 ∨ (Rect.block (s := S262144) S256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S262144.size a
  hwx0_1 : ∀ i : grid0.Coords, EltTy.bits .i32 = 32 ∨ (Rect.block (s := S262144) S256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S262144.size a
  hwx0_2 : ∀ i : grid0.Coords, EltTy.bits .i32 = 32 ∨ (Rect.block (s := S262144) S256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16384x256.size a ≤ S16384x256.size a
  hwx0_3 : ∀ i : grid0.Coords, EltTy.bits .bf16 = 32 ∨ (Rect.block (s := S16384x256) S16384x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S262144.size a
  hwx0_4 : ∀ i : grid0.Coords, EltTy.bits .f32 = 32 ∨ (Rect.block (s := S262144) S256.size (cc0_transform_4 i) (hinb0_4 i)).WholeWords (EltTy.packing .f32)

variable [Facts₀]

def dot_S768x2048_S2048x256_S768x256_1_0_0_1_n_n : DotDims S768x2048 S2048x256 S768x256 where
  lhsContracting := [1]
  rhsContracting := [0]
  lhsNonContracting := [0]
  rhsNonContracting := [1]
  lhsBatch := []
  rhsBatch := []
  wf := dot_S768x2048_S2048x256_S768x256_1_0_0_1_n_n_wf

abbrev win0_0 : Pipeline.Window sig grid0 :=
  Pipeline.Window.ofSpec (Memref.whole main_v0) S256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S262144 : Shape := ⟨1, ![262144]⟩
abbrev S_ : Shape := ⟨0, ![]⟩
abbrev S262144x1 : Shape := ⟨2, ![262144, 1]⟩
abbrev S262144x256 : Shape := ⟨2, ![262144, 256]⟩

abbrev nBuf : Space → Nat
  | .hbm => 80
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S262144x1, .i32⟩
  | .hbm, ⟨12, _⟩ => ⟨S262144x256, .f32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x256, .f32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x256, .f32⟩
  | .hbm, ⟨31, _⟩ => ⟨S262144x256, .f32⟩
  | .hbm, ⟨32, _⟩ => ⟨S_, .f32⟩
  | .hbm, ⟨33, _⟩ => ⟨S262144, .f32⟩
  | .hbm, ⟨34, _⟩ => ⟨S262144, .f32⟩
  | .hbm, ⟨35, _⟩ => ⟨S_, .f32⟩
  | .hbm, ⟨36, _⟩ => ⟨S262144, .f32⟩
  | .hbm, ⟨37, _⟩ => ⟨S262144, .f32⟩
  | .hbm, ⟨38, _⟩ => ⟨S262144x256, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S_, .f32⟩
  | .hbm, ⟨43, _⟩ => ⟨S262144, .f32⟩
  | .hbm, ⟨44, _⟩ => ⟨S262144, .f32⟩
  | .hbm, ⟨45, _⟩ => ⟨S262144x256, .f32⟩
  | .hbm, ⟨46, _⟩ => ⟨S_, .f32⟩
  | .hbm, ⟨47, _⟩ => ⟨S262144, .f32⟩
  | .hbm, ⟨48, _⟩ => ⟨S262144, .f32⟩
  | .hbm, ⟨49, _⟩ => ⟨S262144, .f32⟩
  | .hbm, ⟨50, _⟩ => ⟨S262144x256, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S_, .f32⟩
  | .hbm, ⟨55, _⟩ => ⟨S262144, .f32⟩
  | .hbm, ⟨56, _⟩ => ⟨S262144, .f32⟩
  | .hbm, ⟨57, _⟩ => ⟨S262144x256, .f32⟩
  | .hbm, ⟨58, _⟩ => ⟨S_, .f32⟩
  | .hbm, ⟨59, _⟩ => ⟨S262144, .f32⟩
  | .hbm, ⟨60, _⟩ => ⟨S262144, .f32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S262144x256, .f32⟩
  | .hbm, ⟨65, _⟩ => ⟨S_, .f32⟩
  | .hbm, ⟨66, _⟩ => ⟨S262144, .f32⟩
  | .hbm, ⟨67, _⟩ => ⟨S262144, .f32⟩
  | .hbm, ⟨68, _⟩ => ⟨S262144, .f32⟩
  | .hbm, ⟨69, _⟩ => ⟨S262144, .f32⟩
  | .hbm, ⟨70, _⟩ => ⟨S_, .f32⟩
  | .hbm, ⟨71, _⟩ => ⟨S262144, .f32⟩
  | .hbm, ⟨72, _⟩ => ⟨S262144, .f32⟩
  | .hbm, ⟨73, _⟩ => ⟨S_, .f32⟩
  | .hbm, ⟨74, _⟩ => ⟨S262144, .f32⟩
  | .hbm, ⟨75, _⟩ => ⟨S262144, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_cst_11 : Ref sig .tc := ⟨.hbm, 73, rfl⟩
abbrev main_v44 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x256_S262144_d1 : S262144x256.ReducesTo [1] S262144
  h_S_ : 0 < S_.numel
  reducesTo_S262144_S_d0 : S262144.ReducesTo [0] S_
  gather_S16384x256_S262144x1_S262144x256_1_0_n_n_0_1_1256_wf : GatherDims.WF S16384x256 S262144x1 S262144x256 [1] [0] [] [0] [] 1 ![1, 256]

variable [Facts₀]

def gather_S16384x256_S262144x1_S262144x256_1_0_n_n_0_1_1256 : GatherDims S16384x256 S262144x1 S262144x256 where
  offsetDims := [1]
  collapsedSliceDims := [0]
  operandBatchingDims := []
  startIndicesBatchingDims := []
  startIndexMap := [0]
  indexVectorDim := 1
  sliceSizes := ![1, 256]
  wf := gather_S16384x256_S262144x1_S262144x256_1_0_n_n_0_1_1256_wf

class Facts : Prop extends Facts₀ where

variable [Facts]
-- ==== Proof.Spec.lean ====
/-
  The mathematics of the triplet ranking loss, with no program in sight.

  For three rows a, p, n of a table the loss entry is max (cos (a, p) - cos (a, n) + margin, 0), where
  cos (x, y) = (Σ x·y) / (max (√Σ x², ε) · max (√Σ y², ε)) on the extended reals. A row is picked out of the table
  either directly, or by a sum against a selector that is 1 on one column and 0 elsewhere, eight column ranges of
  2048 at a time: exactly one range holds the row, and there the sum is the row's entry.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Triplet

open Idealize.ShloMosaic Idealize.ShloMosaic.ValueIdx

/-- The cosine of two rows, each norm bounded below by ε. -/
def cosOf (x y : Fin 256 → EReal) : EReal :=
  Ideal.div (∑ k : Fin 256, x k * y k)
    (max (Ideal.sqrt (∑ k : Fin 256, x k * x k)) (Ideal.ofBits .f32 0x358637BD#32)
      * max (Ideal.sqrt (∑ k : Fin 256, y k * y k)) (Ideal.ofBits .f32 0x358637BD#32))

/-- One triplet's entry: the margin ranking of the anchor's cosines with the positive and the negative row. -/
def lossAt (a p n : Fin 256 → EReal) : EReal :=
  max (cosOf a p - cosOf a n + Ideal.ofBits .f32 0x3DCCCCCD#32) (Ideal.ofBits .f32 0x00000000#32)

/-- The row of a [16384 × 256] table a word names (its value as a natural number; words in range are the only
    ones met). -/
def rowOf (X : (⟨2, ![16384, 256]⟩ : Shape).Idx → EReal) (w : BitVec 32) : Fin 256 → EReal :=
  fun k => X (ix2 ⟨w.toNat % 16384, Nat.mod_lt _ (by decide)⟩ k)

theorem rowOf_apply (X : (⟨2, ![16384, 256]⟩ : Shape).Idx → EReal) (w : BitVec 32) (h : w.toNat < 16384) (k : Fin 256) :
    rowOf X w k = X (ix2 ⟨w.toNat, h⟩ k) := by
  unfold rowOf
  congr 2
  exact Fin.ext (Nat.mod_eq_of_lt h)

/-! ## The selector -/

/-- A compared pair of words, widened and read as a number, is 1 where they agree and 0 elsewhere. -/
theorem hot_eq (a b : BitVec 32) :
    ((((IntOp.cmpi .eq a b).setWidth 32).toInt : ℝ) : EReal) = if a = b then 1 else 0 := by
  by_cases h : a = b
  · rw [if_pos h, (StableHlo.Predicate.cmpi_eq_iff).mpr h]
    norm_num
  · rw [if_neg h, eq_zero_of_ne_one (fun e => h ((StableHlo.Predicate.cmpi_eq_iff).mp e))]
    norm_num

/-- Summing a function of 2048 columns against the selector of the column a word names: the function there, or
    nothing when the word names no column of the range. -/
theorem sum_hot (v : BitVec 32) (f : Fin 2048 → EReal) :
    ∑ j : Fin 2048, (if BitVec.ofNat 32 j.val = v then (1 : EReal) else 0) * f j
      = if h : v.toNat < 2048 then f ⟨v.toNat, h⟩ else 0 := by
  by_cases h : v.toNat < 2048
  · rw [dif_pos h, Finset.sum_eq_single (⟨v.toNat, h⟩ : Fin 2048)]
    · rw [if_pos (by apply BitVec.eq_of_toNat_eq; simp only [BitVec.toNat_ofNat]; omega), one_mul]
    · intro j _ hj
      rw [if_neg, zero_mul]
      intro e
      apply hj
      apply Fin.ext
      have := congrArg BitVec.toNat e
      simp only [BitVec.toNat_ofNat] at this
      have := j.isLt
      show j.val = v.toNat
      omega
    · intro h'; exact absurd (Finset.mem_univ _) h'
  · rw [dif_neg h]
    apply Finset.sum_eq_zero
    intro j _
    rw [if_neg, zero_mul]
    intro e
    apply h
    have := congrArg BitVec.toNat e
    simp only [BitVec.toNat_ofNat] at this
    have := j.isLt
    omega

/-- Range k of the eight holds the row a word below 16384 names exactly when the word's quotient by 2048 is k,
    and then the range's column is the word's remainder. -/
theorem pick (w off : BitVec 32) (k : ℕ) (hk : k < 8) (hoff : off.toNat = 2048 * k) (hw : w.toNat < 16384)
    (g : ℕ → EReal) (f : Fin 2048 → EReal) (hf : ∀ j : Fin 2048, f j = g (2048 * k + j.val)) :
    (if h : (w - off).toNat < 2048 then f ⟨(w - off).toNat, h⟩ else 0)
      = if w.toNat / 2048 = k then g w.toNat else 0 := by
  have e : (w - off).toNat = (4294967296 - off.toNat + w.toNat) % 4294967296 := BitVec.toNat_sub w off
  by_cases hq : w.toNat / 2048 = k
  · have e' : (w - off).toNat = w.toNat - 2048 * k := by rw [e, hoff]; omega
    rw [dif_pos (by rw [e']; omega), if_pos hq, hf]
    congr 1
    show 2048 * k + (w - off).toNat = w.toNat
    rw [e']; omega
  · rw [dif_neg (by rw [e, hoff]; omega), if_neg hq]

/-- Of eight terms each present only when the quotient is its number, the sum from zero is the one present. -/
theorem chain8 (q : ℕ) (hq : q < 8) (v z : EReal) (hz : z = 0) :
    z + (if q = 0 then v else 0) + (if q = 1 then v else 0) + (if q = 2 then v else 0) + (if q = 3 then v else 0)
      + (if q = 4 then v else 0) + (if q = 5 then v else 0) + (if q = 6 then v else 0) + (if q = 7 then v else 0) = v := by
  subst hz
  interval_cases q <;> simp

/-! ## Words in range -/

/-- A word that is at least 0 and below 16384 as a signed number is below 16384 as a natural number. -/
theorem toNat_lt_of_cmp (w : BitVec 32) (h0 : IntOp.cmpi .sge w (0#32) = 1#1) (h1 : IntOp.cmpi .slt w (16384#32) = 1#1) :
    w.toNat < 16384 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- Such a word reads the same signed and unsigned. -/
theorem toInt_of_lt (w : BitVec 32) (h : w.toNat < 16384) : w.toInt = w.toNat :=
  StableHlo.Predicate.toInt_eq_toNat_of_lt (by omega)

/-- Clamping it into [0, 16383] changes nothing. -/
theorem clip_id (w : BitVec 32) (h : w.toNat < 16384) : IntOp.minsi 16383#32 (IntOp.maxsi 0#32 w) = w := by
  have hti : w.toInt = w.toNat := toInt_of_lt w h
  have h0 : (0#32 : BitVec 32).toInt = 0 := by decide
  have hh : (16383#32 : BitVec 32).toInt = 16383 := by decide
  have hmax : IntOp.maxsi 0#32 w = w := by
    unfold IntOp.maxsi
    split <;> rename_i hc <;> simp only [BitVec.slt, hti, h0, decide_eq_true_eq] at hc
    all_goals first | rfl | (apply BitVec.eq_of_toNat_eq; simp only [BitVec.toNat_ofNat]; omega)
  rw [hmax]
  unfold IntOp.minsi
  split <;> rename_i hc <;> simp only [BitVec.slt, hti, hh, decide_eq_true_eq] at hc
  all_goals first | rfl | (apply BitVec.eq_of_toNat_eq; simp only [BitVec.toNat_ofNat]; omega)

/-- Wrapping a negative word by 16384 does not touch it: it is not negative. -/
theorem wrap_id (w : BitVec 32) (h : w.toNat < 16384) :
    Scalar.select (IntOp.cmpi .slt w 0#32) (IntOp.addi w 16384#32) w = w := by
  have hti : w.toInt = w.toNat := toInt_of_lt w h
  have : IntOp.cmpi .slt w 0#32 = 0#1 := by
    apply eq_zero_of_ne_one
    intro e
    unfold IntOp.cmpi at e
    rw [StableHlo.Predicate.ofBool_eq_one_iff] at e
    simp only [BitVec.slt, hti, decide_eq_true_eq] at e
    have h0 : (0#32 : BitVec 32).toInt = 0 := by decide
    rw [h0] at e
    omega
  rw [this, select_zero]

/-- The position a word in range names on the table's first axis, clamped or not, is the word. -/
theorem clamp_pos (w : BitVec 32) (h : w.toNat < 16384) : min w.toInt.toNat (16384 - 1) = w.toNat := by
  rw [toInt_of_lt w h]
  simp only [Int.toNat_natCast]
  omega

end Cert.Triplet

end
-- ==== Proof.KernelAcc.lean ====
/-
  The selector program's arithmetic at one grid point, over the extended reals.

  The three blocks of 256 words are stacked into a column of 768. For each of eight ranges of 2048 table rows a
  [768 × 2048] selector is formed, 1 where the column number equals the word shifted by the range's start and 0
  elsewhere, and multiplied into the range; the eight products are added up from zero. Entry (R, d) of a product is a
  sum over 2048 columns in which at most one term is not zero, so it is the table's entry (word, d) when the word's
  quotient by 2048 is the range's number and zero otherwise; hence the accumulated array holds at (R, d) the entry d
  of the row the R-th stacked word names. Its three slices of 256 rows are the anchor, positive and negative rows, and
  the stored value is their margin ranking: each row sum a plain sum, each norm bounded below by ε.
-/
import proofs.«419723_j42365557408211_3_alg».proof.Proof.Gen.KernelIdeal.Skeleton
import proofs.«419723_j42365557408211_3_alg».proof.Proof.Spec
import Idealize.ShloMosaic.Lib.Pipeline.Value
import Idealize.ShloMosaic.PureOps.Ideal.Laws
import Idealize.ShloMosaic.Lib.ValueIdx

noncomputable section

namespace Cert.KernelIdeal.Acc

open Cert.KernelIdeal Cert.KernelIdeal.Gen Idealize.ShloMosaic Idealize.ShloMosaic.ValueIdx Cert.Triplet

theorem lhs_mm_0 (i : S768x256.Idx) (q : dot_S768x2048_S2048x256_S768x256_1_0_0_1_n_n.contr.Idx) :
    (dot_S768x2048_S2048x256_S768x256_1_0_0_1_n_n.lhsIdx i q 0).val = (i 0).val := by
  unfold DotDims.lhsIdx
  rw [dif_neg (show ¬(0 : Fin S768x2048.rank) ∈ dot_S768x2048_S2048x256_S768x256_1_0_0_1_n_n.lhsBatch by decide), dif_pos (show (0 : Fin S768x2048.rank) ∈ dot_S768x2048_S2048x256_S768x256_1_0_0_1_n_n.lhsNonContracting by decide)]
  rfl
theorem lhs_mm_1 (i : S768x256.Idx) (q : dot_S768x2048_S2048x256_S768x256_1_0_0_1_n_n.contr.Idx) :
    (dot_S768x2048_S2048x256_S768x256_1_0_0_1_n_n.lhsIdx i q 1).val = (q ⟨0, by decide⟩).val :=
  dot_S768x2048_S2048x256_S768x256_1_0_0_1_n_n.lhsIdx_val_of_single rfl i q
theorem rhs_mm_0 (i : S768x256.Idx) (q : dot_S768x2048_S2048x256_S768x256_1_0_0_1_n_n.contr.Idx) :
    (dot_S768x2048_S2048x256_S768x256_1_0_0_1_n_n.rhsIdx i q 0).val = (q ⟨0, by decide⟩).val :=
  dot_S768x2048_S2048x256_S768x256_1_0_0_1_n_n.rhsIdx_val_of_single rfl i q
theorem rhs_mm_1 (i : S768x256.Idx) (q : dot_S768x2048_S2048x256_S768x256_1_0_0_1_n_n.contr.Idx) :
    (dot_S768x2048_S2048x256_S768x256_1_0_0_1_n_n.rhsIdx i q 1).val = (i 1).val := by
  unfold DotDims.rhsIdx
  rw [dif_neg (show ¬(1 : Fin S2048x256.rank) ∈ dot_S768x2048_S2048x256_S768x256_1_0_0_1_n_n.rhsBatch by decide), dif_pos (show (1 : Fin S2048x256.rank) ∈ dot_S768x2048_S2048x256_S768x256_1_0_0_1_n_n.rhsNonContracting by decide)]
  rfl

/-- The product of a [768 × 2048] by a [2048 × 256] array into zero, at (R, d): the sum over the 2048 shared
    coordinates. -/
theorem mm_apply (lhs : FVec Ideal S768x2048 .bf16) (rhs : FVec Ideal S2048x256 .bf16) (R : Fin 768) (d : Fin 256) :
    matmul dot_S768x2048_S2048x256_S768x256_1_0_0_1_n_n none lhs rhs (constant S768x256 .f32 0x00000000#32) (ix2 R d)
      = ∑ j : Fin 2048, lhs (ix2 R j) * rhs (ix2 j d) := by
  show FloatOps.matmul _ _ _ _ _ _ = _
  rw [Ideal.matmul_constant_zero_apply, ← Equiv.sum_comp (ValueIdx.contrEquiv1 dot_S768x2048_S2048x256_S768x256_1_0_0_1_n_n 2048 rfl rfl).symm]
  refine Finset.sum_congr rfl fun k _ => ?_
  have hk := ValueIdx.contrEquiv1_symm_val dot_S768x2048_S2048x256_S768x256_1_0_0_1_n_n 2048 rfl rfl k
  have el : dot_S768x2048_S2048x256_S768x256_1_0_0_1_n_n.lhsIdx (ix2 R d) ((ValueIdx.contrEquiv1 dot_S768x2048_S2048x256_S768x256_1_0_0_1_n_n 2048 rfl rfl).symm k) = ix2 R k := funext fun a => Fin.ext (by
    match a with
    | ⟨0, _⟩ => exact lhs_mm_0 _ _
    | ⟨1, _⟩ => exact (lhs_mm_1 _ _).trans hk)
  have er : dot_S768x2048_S2048x256_S768x256_1_0_0_1_n_n.rhsIdx (ix2 R d) ((ValueIdx.contrEquiv1 dot_S768x2048_S2048x256_S768x256_1_0_0_1_n_n 2048 rfl rfl).symm k) = ix2 k d := funext fun a => Fin.ext (by
    match a with
    | ⟨0, _⟩ => exact (rhs_mm_0 _ _).trans hk
    | ⟨1, _⟩ => exact rhs_mm_1 _ _)
  rw [el, er]

/-- One range's product with its selector, at (R, d): the range's entry at the column the shifted word names, or
    nothing when it names none. -/
theorem mm_onehot (v9 : IVec S768x1 32) (off : BitVec 32) (blk : FVec Ideal S2048x256 .bf16) (R : Fin 768) (d : Fin 256) :
    matmul (F := Ideal) dot_S768x2048_S2048x256_S768x256_1_0_0_1_n_n none
      (truncf .bf16 (sitofp .f32 (extui 32 (cmpi .eq (iota .tc S768x2048 32 [1] iota_S768x2048_d1_w32)
        (broadcastTo S768x2048 (subi v9 (broadcast S768x1 off)) broadcasts_S768x1_S768x2048)) natLt_1_32)) bitsLt_bf16_f32)
      (shapeCast S2048x256 blk shapeCasts_S2048x256_S2048x256) (constant S768x256 .f32 0x00000000#32) (ix2 R d)
    = ((if h : (v9 (ix2 R 0) - off).toNat < 2048 then blk (ix2 ⟨(v9 (ix2 R 0) - off).toNat, h⟩ d) else 0 : EReal)) := by
  rw [mm_apply, ← sum_hot (v9 (ix2 R 0) - off) (fun j => blk (ix2 j d))]
  refine Finset.sum_congr rfl fun j _ => ?_
  rw [shapeCast_self]
  congr 1
  show ((((IntOp.cmpi .eq (iota .tc S768x2048 32 [1] iota_S768x2048_d1_w32 (ix2 R j)) (broadcastTo S768x2048 (subi v9 (broadcast S768x1 off)) broadcasts_S768x1_S768x2048 (ix2 R j))).setWidth 32).toInt : ℝ) : EReal) = _
  rw [iota_single_apply, broadcastTo_apply _ _ (ix2 R j) (ix2 R 0) (fun a => by match a with | ⟨0, _⟩ => rfl | ⟨1, _⟩ => rfl), hot_eq]
  rfl

/-- A word of a [256] block seen as a [256 × 1] column. -/
theorem column_apply (x : Vec Ideal S256 .i32) (r : Fin 256) :
    shapeCast S256x1 (shapeCast S256 x shapeCasts_S256_S256) shapeCasts_S256_S256x1 (ix2 r 0) = x (ix1 r) := by
  rw [shapeCast_apply _ _ (ix2 r 0) (ix1 r) (by
    rw [Shape.rowMajor_val_one, Shape.rowMajor_val_two]
    show r.val = r.val * 1 + 0
    omega), shapeCast_self]

/-- The stacked column of words: the anchor's 256 first, -/
theorem stack_a (x0 x1 x2 : Vec Ideal S256 .i32) (r : Fin 256) :
    k0_pay2 (F := Ideal) x0 x1 x2 (ix2 ⟨r.val, by have := r.isLt; omega⟩ 0) = x0 (ix1 r) := by
  unfold k0_pay2
  rw [concatenate_apply_piece (t := S768x1) (0 : Fin 2) _ _ _ 0 (by show 0 < 3; omega) S256x1 _ rfl rfl 0 rfl (ix2 r 0)
    (fun b hb => by match b with | ⟨0, _⟩ => exact absurd rfl hb | ⟨1, _⟩ => rfl) (by show 0 + r.val = r.val; omega)]
  exact column_apply x0 r

/-- then the positive's, -/
theorem stack_p (x0 x1 x2 : Vec Ideal S256 .i32) (r : Fin 256) :
    k0_pay2 (F := Ideal) x0 x1 x2 (ix2 ⟨256 + r.val, by have := r.isLt; omega⟩ 0) = x1 (ix1 r) := by
  unfold k0_pay2
  rw [concatenate_apply_piece (t := S768x1) (0 : Fin 2) _ _ _ 1 (by show 1 < 3; omega) S256x1 _ rfl rfl 256 rfl (ix2 r 0)
    (fun b hb => by match b with | ⟨0, _⟩ => exact absurd rfl hb | ⟨1, _⟩ => rfl) (by show 256 + r.val = 256 + r.val; omega)]
  exact column_apply x1 r

/-- then the negative's. -/
theorem stack_n (x0 x1 x2 : Vec Ideal S256 .i32) (r : Fin 256) :
    k0_pay2 (F := Ideal) x0 x1 x2 (ix2 ⟨512 + r.val, by have := r.isLt; omega⟩ 0) = x2 (ix1 r) := by
  unfold k0_pay2
  rw [concatenate_apply_piece (t := S768x1) (0 : Fin 2) _ _ _ 2 (by show 2 < 3; omega) S256x1 _ rfl rfl 512 rfl (ix2 r 0)
    (fun b hb => by match b with | ⟨0, _⟩ => exact absurd rfl hb | ⟨1, _⟩ => rfl) (by show 512 + r.val = 512 + r.val; omega)]
  exact column_apply x2 r

/-! ## The accumulated product is the named row -/

/-- A [2048 × 256] range of the table starting at row `o`. -/
abbrev chunkOf {F : FTy → Type} [FloatOps F] (X : Vec F S16384x256 .bf16) (o : ℕ)
    (inb : ∀ a, (![o, 0] : Fin 2 → ℕ) a + S2048x256.size a ≤ S16384x256.size a) : FVec F S2048x256 .bf16 :=
  View.ld X (Rect.unit (s := S16384x256) ![o, 0] S2048x256.size inb)

/-- Its entry at (j, d) is the table's at (o + j, d). -/
theorem chunkOf_apply (X : Vec Ideal S16384x256 .bf16) (o : ℕ)
    (inb : ∀ a, (![o, 0] : Fin 2 → ℕ) a + S2048x256.size a ≤ S16384x256.size a) (j : Fin 2048) (d : Fin 256)
    (h : o + j.val < 16384) : chunkOf X o inb (ix2 j d) = X (ix2 ⟨o + j.val, h⟩ d) := by
  show X _ = X _
  refine congrArg X (funext fun a => Fin.ext ?_)
  match a with
  | ⟨0, _⟩ => show o + 1 * j.val = o + j.val; omega
  | ⟨1, _⟩ => show 0 + 1 * d.val = d.val; omega

/-- The table's entry in column d as a function of the row's number. -/
def entry (X : Vec Ideal S16384x256 .bf16) (d : Fin 256) (n : ℕ) : EReal :=
  if h : n < 16384 then X (ix2 ⟨n, h⟩ d) else 0

theorem entry_eq (X : Vec Ideal S16384x256 .bf16) (d : Fin 256) (w : BitVec 32) (h : w.toNat < 16384) :
    entry X d w.toNat = rowOf X w d := by
  unfold entry
  rw [dif_pos h, rowOf_apply X w h]

/-- Range k's product with its selector, at (R, d): the named row's entry when the word's quotient by 2048 is k. -/
theorem mm_chunk (v9 : IVec S768x1 32) (off : BitVec 32) (k : ℕ) (hk : k < 8) (hoff : off.toNat = 2048 * k)
    (X : Vec Ideal S16384x256 .bf16) (o : ℕ) (ho : o = 2048 * k)
    (inb : ∀ a, (![o, 0] : Fin 2 → ℕ) a + S2048x256.size a ≤ S16384x256.size a) (R : Fin 768) (d : Fin 256)
    (hw : (v9 (ix2 R 0)).toNat < 16384) :
    matmul (F := Ideal) dot_S768x2048_S2048x256_S768x256_1_0_0_1_n_n none
      (truncf .bf16 (sitofp .f32 (extui 32 (cmpi .eq (iota .tc S768x2048 32 [1] iota_S768x2048_d1_w32)
        (broadcastTo S768x2048 (subi v9 (broadcast S768x1 off)) broadcasts_S768x1_S768x2048)) natLt_1_32)) bitsLt_bf16_f32)
      (shapeCast S2048x256 (chunkOf X o inb) shapeCasts_S2048x256_S2048x256) (constant S768x256 .f32 0x00000000#32) (ix2 R d)
    = if (v9 (ix2 R 0)).toNat / 2048 = k then entry X d (v9 (ix2 R 0)).toNat else 0 := by
  rw [mm_onehot]
  refine pick _ off k hk hoff hw (entry X d) (fun j => chunkOf X o inb (ix2 j d)) (fun j => ?_)
  subst ho
  have hj := j.isLt
  rw [chunkOf_apply X _ inb j d (by omega)]
  unfold entry
  rw [dif_pos (by omega)]

/-- The accumulator after the eight ranges. -/
def accOf {F : FTy → Type} [FloatOps F] (x0 x1 x2 : Vec F S256 .i32) (X : Vec F S16384x256 .bf16) : FVec F S768x256 .f32 :=
  k0_pay7 (k0_pay2 x0 x1 x2) (iota .tc S768x2048 32 [1] iota_S768x2048_d1_w32)
    (k0_pay5 (k0_pay2 x0 x1 x2) (iota .tc S768x2048 32 [1] iota_S768x2048_d1_w32)
      (k0_pay3 x0 x1 x2 (chunkOf X 0 (by decide)) (chunkOf X 2048 (by decide))) (k0_pay4 x0 x1 x2)
      (chunkOf X 4096 (by decide)) (chunkOf X 6144 (by decide)) (chunkOf X 8192 (by decide)))
    (k0_pay6 (k0_pay2 x0 x1 x2) (iota .tc S768x2048 32 [1] iota_S768x2048_d1_w32))
    (chunkOf X 10240 (by decide)) (chunkOf X 12288 (by decide)) (chunkOf X 14336 (by decide))

/-- At (R, d) it holds the entry of the row the R-th stacked word names. -/
theorem acc_apply (x0 x1 x2 : Vec Ideal S256 .i32) (X : Vec Ideal S16384x256 .bf16) (R : Fin 768) (d : Fin 256)
    (hw : (k0_pay2 (F := Ideal) x0 x1 x2 (ix2 R 0)).toNat < 16384) :
    accOf (F := Ideal) x0 x1 x2 X (ix2 R d) = rowOf X (k0_pay2 (F := Ideal) x0 x1 x2 (ix2 R 0)) d := by
  unfold accOf k0_pay7 k0_pay5 k0_pay3 k0_pay4 k0_pay6
  simp only [addf_apply]
  rw [mm_chunk (k0_pay2 x0 x1 x2) (Scalar.muli 0#32 2048#32) 0 (by omega) (by decide) X 0 rfl _ R d hw,
    mm_chunk (k0_pay2 x0 x1 x2) (Scalar.muli 1#32 2048#32) 1 (by omega) (by decide) X 2048 rfl _ R d hw,
    mm_chunk (k0_pay2 x0 x1 x2) (Scalar.muli 2#32 2048#32) 2 (by omega) (by decide) X 4096 rfl _ R d hw,
    mm_chunk (k0_pay2 x0 x1 x2) (Scalar.muli 3#32 2048#32) 3 (by omega) (by decide) X 6144 rfl _ R d hw,
    mm_chunk (k0_pay2 x0 x1 x2) (Scalar.muli 4#32 2048#32) 4 (by omega) (by decide) X 8192 rfl _ R d hw,
    mm_chunk (k0_pay2 x0 x1 x2) (Scalar.muli 5#32 2048#32) 5 (by omega) (by decide) X 10240 rfl _ R d hw,
    mm_chunk (k0_pay2 x0 x1 x2) (Scalar.muli 6#32 2048#32) 6 (by omega) (by decide) X 12288 rfl _ R d hw,
    mm_chunk (k0_pay2 x0 x1 x2) (Scalar.muli 7#32 2048#32) 7 (by omega) (by decide) X 14336 rfl _ R d hw]
  refine (chain8 _ (by omega) _ _ ?_).trans (entry_eq X d _ hw)
  show Ideal.ofBits .f32 0x00000000#32 = 0
  exact Ideal.ofBits_zero_f32

/-! ## One block's 256 entries -/

/-- What the body stores: the margin ranking computed from the three 256-row slices of the accumulator. -/
def bodyVal {F : FTy → Type} [FloatOps F] (x0 x1 x2 : Vec F S256 .i32) (X : Vec F S16384x256 .bf16) : FVec F S256 .f32 :=
  k0_pay1
    (k0_pay8 (k0_pay2 x0 x1 x2) (iota .tc S768x2048 32 [1] iota_S768x2048_d1_w32)
      (k0_pay5 (k0_pay2 x0 x1 x2) (iota .tc S768x2048 32 [1] iota_S768x2048_d1_w32)
        (k0_pay3 x0 x1 x2 (chunkOf X 0 (by decide)) (chunkOf X 2048 (by decide))) (k0_pay4 x0 x1 x2)
        (chunkOf X 4096 (by decide)) (chunkOf X 6144 (by decide)) (chunkOf X 8192 (by decide)))
      (k0_pay6 (k0_pay2 x0 x1 x2) (iota .tc S768x2048 32 [1] iota_S768x2048_d1_w32))
      (chunkOf X 10240 (by decide)) (chunkOf X 12288 (by decide)) (chunkOf X 14336 (by decide)))
    (k0_pay10 (k0_pay2 x0 x1 x2) (iota .tc S768x2048 32 [1] iota_S768x2048_d1_w32)
      (k0_pay5 (k0_pay2 x0 x1 x2) (iota .tc S768x2048 32 [1] iota_S768x2048_d1_w32)
        (k0_pay3 x0 x1 x2 (chunkOf X 0 (by decide)) (chunkOf X 2048 (by decide))) (k0_pay4 x0 x1 x2)
        (chunkOf X 4096 (by decide)) (chunkOf X 6144 (by decide)) (chunkOf X 8192 (by decide)))
      (k0_pay6 (k0_pay2 x0 x1 x2) (iota .tc S768x2048 32 [1] iota_S768x2048_d1_w32))
      (chunkOf X 10240 (by decide)) (chunkOf X 12288 (by decide)) (chunkOf X 14336 (by decide)))
    (k0_pay11 (k0_pay2 x0 x1 x2) (iota .tc S768x2048 32 [1] iota_S768x2048_d1_w32)
      (k0_pay5 (k0_pay2 x0 x1 x2) (iota .tc S768x2048 32 [1] iota_S768x2048_d1_w32)
        (k0_pay3 x0 x1 x2 (chunkOf X 0 (by decide)) (chunkOf X 2048 (by decide))) (k0_pay4 x0 x1 x2)
        (chunkOf X 4096 (by decide)) (chunkOf X 6144 (by decide)) (chunkOf X 8192 (by decide)))
      (k0_pay6 (k0_pay2 x0 x1 x2) (iota .tc S768x2048 32 [1] iota_S768x2048_d1_w32))
      (chunkOf X 10240 (by decide)) (chunkOf X 12288 (by decide)) (chunkOf X 14336 (by decide)))
    (k0_pay12 (k0_pay2 x0 x1 x2) (iota .tc S768x2048 32 [1] iota_S768x2048_d1_w32)
      (k0_pay5 (k0_pay2 x0 x1 x2) (iota .tc S768x2048 32 [1] iota_S768x2048_d1_w32)
        (k0_pay3 x0 x1 x2 (chunkOf X 0 (by decide)) (chunkOf X 2048 (by decide))) (k0_pay4 x0 x1 x2)
        (chunkOf X 4096 (by decide)) (chunkOf X 6144 (by decide)) (chunkOf X 8192 (by decide)))
      (k0_pay6 (k0_pay2 x0 x1 x2) (iota .tc S768x2048 32 [1] iota_S768x2048_d1_w32))
      (chunkOf X 10240 (by decide)) (chunkOf X 12288 (by decide)) (chunkOf X 14336 (by decide)))
    (k0_pay13 (k0_pay2 x0 x1 x2) (iota .tc S768x2048 32 [1] iota_S768x2048_d1_w32)
      (k0_pay5 (k0_pay2 x0 x1 x2) (iota .tc S768x2048 32 [1] iota_S768x2048_d1_w32)
        (k0_pay3 x0 x1 x2 (chunkOf X 0 (by decide)) (chunkOf X 2048 (by decide))) (k0_pay4 x0 x1 x2)
        (chunkOf X 4096 (by decide)) (chunkOf X 6144 (by decide)) (chunkOf X 8192 (by decide)))
      (k0_pay6 (k0_pay2 x0 x1 x2) (iota .tc S768x2048 32 [1] iota_S768x2048_d1_w32))
      (chunkOf X 10240 (by decide)) (chunkOf X 12288 (by decide)) (chunkOf X 14336 (by decide)))

/-- A [256 × 256] array summed along its rows, at r. -/
theorem rowsum (src : FVec Ideal S256x256 .f32) (hφ : _) (hacc : _) (r : Fin 256) :
    multiReduction (F := Ideal) .add [1] S256 src 0x00000000#32 reduces_S256x256_S256 hφ hacc (ix1 r)
      = ∑ k : Fin 256, src (ix2 r k) := by
  refine (Ideal.multiReduction_add_single src 0x00000000#32 reduces_S256x256_S256 hφ hacc (ix1 r)).trans ?_
  refine Finset.sum_congr rfl fun k _ => congrArg src ?_
  funext a
  match a with
  | ⟨0, _⟩ => rfl
  | ⟨1, _⟩ => rfl

/-- The slice of the accumulator from row `o`, at (r, k): the accumulator at (o + r, k). -/
theorem slice_apply (acc : FVec Ideal S768x256 .f32) (o : ℕ) (h : S768x256.Slices ![o, 0] S256x256) (r k : Fin 256)
    (ho : o + r.val < 768) :
    extractStridedSlice S256x256 ![o, 0] acc h (ix2 r k) = acc (ix2 ⟨o + r.val, ho⟩ k) :=
  extractStridedSlice_apply _ _ _ (ix2 r k) (ix2 ⟨o + r.val, ho⟩ k) (fun a => by
    match a with
    | ⟨0, _⟩ => rfl
    | ⟨1, _⟩ => show k.val = 0 + k.val; omega)

/-- The stored value over ANY three [256 × 256] arrays a, p, n (the norms and the product as the body forms them), at r:
    the margin ranking of their r-th rows. -/
theorem pay_loss (a p n : FVec Ideal S256x256 .f32) (r : Fin 256) :
    k0_pay1 (F := Ideal) a n
      (maximumf (Idealize.ShloMosaic.sqrt (multiReduction .add [1] S256 (mulf a a) 0x00000000#32 reduces_S256x256_S256 (.inl rfl) rfl))
        (broadcast S256 (Scalar.ofBits .f32 0x358637BD#32)))
      (maximumf (Idealize.ShloMosaic.sqrt (multiReduction .add [1] S256 (mulf p p) 0x00000000#32 reduces_S256x256_S256 (.inl rfl) rfl))
        (broadcast S256 (Scalar.ofBits .f32 0x358637BD#32)))
      (mulf a p) (ix1 r)
      = lossAt (fun k => a (ix2 r k)) (fun k => p (ix2 r k)) (fun k => n (ix2 r k)) := by
  unfold k0_pay1 lossAt cosOf
  simp only [maximumf_apply, addf_apply, subf_apply, divf_apply, broadcast_apply, Idealize.ShloMosaic.sqrt]
  refine congrArg₂ max ?_ rfl
  refine congrArg₂ (· + ·) ?_ rfl
  refine congrArg₂ (· - ·) ?_ ?_
  · refine congrArg₂ Ideal.div (rowsum (mulf a p) _ _ r) ?_
    exact congrArg₂ (· * ·) (congrArg₂ max (congrArg Ideal.sqrt (rowsum (mulf a a) _ _ r)) rfl)
      (congrArg₂ max (congrArg Ideal.sqrt (rowsum (mulf p p) _ _ r)) rfl)
  · refine congrArg₂ Ideal.div (rowsum (mulf a n) _ _ r) ?_
    exact congrArg₂ (· * ·) (congrArg₂ max (congrArg Ideal.sqrt (rowsum (mulf a a) _ _ r)) rfl)
      (congrArg₂ max (congrArg Ideal.sqrt (rowsum (mulf n n) _ _ r)) rfl)

/-- Entry r of the block is the margin ranking of the rows the block's r-th words name. -/
theorem body_apply (x0 x1 x2 : Vec Ideal S256 .i32) (X : Vec Ideal S16384x256 .bf16) (r : Fin 256)
    (h0 : (x0 (ix1 r)).toNat < 16384) (h1 : (x1 (ix1 r)).toNat < 16384) (h2 : (x2 (ix1 r)).toNat < 16384) :
    bodyVal (F := Ideal) x0 x1 x2 X (ix1 r)
      = lossAt (rowOf X (x0 (ix1 r))) (rowOf X (x1 (ix1 r))) (rowOf X (x2 (ix1 r))) := by
  have hr := r.isLt
  have sa : ∀ k : Fin 256, accOf (F := Ideal) x0 x1 x2 X (ix2 ⟨0 + r.val, by omega⟩ k) = rowOf X (x0 (ix1 r)) k := fun k => by
    have e : k0_pay2 (F := Ideal) x0 x1 x2 (ix2 ⟨0 + r.val, by omega⟩ 0) = x0 (ix1 r) := by
      rw [show (⟨0 + r.val, by omega⟩ : Fin 768) = ⟨r.val, by omega⟩ from Fin.ext (by simp)]; exact stack_a x0 x1 x2 r
    have := acc_apply x0 x1 x2 X ⟨0 + r.val, by omega⟩ k (by rw [e]; exact h0)
    rw [e] at this; exact this
  have sp : ∀ k : Fin 256, accOf (F := Ideal) x0 x1 x2 X (ix2 ⟨256 + r.val, by omega⟩ k) = rowOf X (x1 (ix1 r)) k := fun k => by
    have e := stack_p x0 x1 x2 r
    have := acc_apply x0 x1 x2 X ⟨256 + r.val, by omega⟩ k (by rw [e]; exact h1)
    rw [e] at this; exact this
  have sn : ∀ k : Fin 256, accOf (F := Ideal) x0 x1 x2 X (ix2 ⟨512 + r.val, by omega⟩ k) = rowOf X (x2 (ix1 r)) k := fun k => by
    have e := stack_n x0 x1 x2 r
    have := acc_apply x0 x1 x2 X ⟨512 + r.val, by omega⟩ k (by rw [e]; exact h2)
    rw [e] at this; exact this
  unfold bodyVal k0_pay11 k0_pay12 k0_pay13 k0_pay8 k0_pay9 k0_pay10
  refine (pay_loss _ _ _ r).trans ?_
  have ea : (fun k => extractStridedSlice S256x256 ![0, 0] (accOf (F := Ideal) x0 x1 x2 X) slices_S768x256_o0_0_S256x256 (ix2 r k))
      = rowOf X (x0 (ix1 r)) := funext fun k => (slice_apply _ 0 _ r k (by omega)).trans (sa k)
  have ep : (fun k => extractStridedSlice S256x256 ![256, 0] (accOf (F := Ideal) x0 x1 x2 X) slices_S768x256_o256_0_S256x256 (ix2 r k))
      = rowOf X (x1 (ix1 r)) := funext fun k => (slice_apply _ 256 _ r k (by omega)).trans (sp k)
  have en : (fun k => extractStridedSlice S256x256 ![512, 0] (accOf (F := Ideal) x0 x1 x2 X) slices_S768x256_o512_0_S256x256 (ix2 r k))
      = rowOf X (x2 (ix1 r)) := funext fun k => (slice_apply _ 512 _ r k (by omega)).trans (sn k)
  exact congr (congr (congrArg lossAt ea) ep) en

end Cert.KernelIdeal.Acc

end
-- ==== Proof.KernelValue.lean ====
/-
  The kernel's run read as a value. Point t of the 1024 stages words 256 t … 256 t + 255 of each (clamped) index
  array and the whole table, and writes back the 256 margin rankings of the rows those words name; in range the
  clamp changes no word, the change of float format changes no table entry, and the 1024 blocks tile the result, so
  the per-triplet array ends holding every triplet's margin ranking. The lines after the region add its entries up
  from zero and divide by 262144.
-/
import proofs.«419723_j42365557408211_3_alg».proof.Proof.Gen.KernelIdeal.Frame
import proofs.«419723_j42365557408211_3_alg».proof.Proof.KernelAcc
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Acc Cert.Triplet
open Idealize.ShloMosaic.ValueIdx Idealize.ShloMosaic.Tactic

theorem hz1 : (![0] : Fin 1 → Nat) = fun _ => 0 := funext fun a => by fin_cases a; rfl

section Piece

variable {F : FTy → Type} [FloatOps F]

/-- What the body leaves in the output's staging buffer: its one store's value, over the blocks it loaded. -/
theorem out_eq (c : Dev nD) (i : grid0.Coords) (arg1 : Memref sig .tc .vmem S256 .i32) (harg1 : arg1.IsWhole) (arg2 : Memref sig .tc .vmem S256 .i32) (harg2 : arg2.IsWhole) (arg3 : Memref sig .tc .vmem S256 .i32) (harg3 : arg3.IsWhole) (arg4 : Memref sig .tc .vmem S16384x256 .bf16) (harg4 : arg4.IsWhole) (arg5 : Memref sig .tc .vmem S256 .f32) (harg5 : arg5.IsWhole)
    (x0 : Vec F S256 .i32) (x1 : Vec F S256 .i32) (x2 : Vec F S256 .i32) (x3 : Vec F S16384x256 .bf16) :
    out0_A_4 (F := F) c i arg1 harg1 arg2 harg2 arg3 harg3 arg4 harg4 arg5 harg5 x0 x1 x2 x3 = bodyVal x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz1]
  simp only [View.readAt_eq_ld, harg1.read_unread, harg2.read_unread, harg3.read_unread, harg4.read_unread, View.ld_unit_zero (S := S256) hz1]
  rfl

end Piece

variable (m : (ℓ : Loc nD τ sig) → Buf (Elt Ideal) ℓ) (ρ : Dev nD → PrngReg)

/-- The argument arrays at their literal types. -/
abbrev tbl (c : Dev nD) : S16384x256.Idx → EReal := m ((c : Thread nD τ).loc main_arg0)
abbrev wa (c : Dev nD) : IVec S262144 32 := m ((c : Thread nD τ).loc main_arg1)
abbrev wp (c : Dev nD) : IVec S262144 32 := m ((c : Thread nD τ).loc main_arg2)
abbrev wn (c : Dev nD) : IVec S262144 32 := m ((c : Thread nD τ).loc main_arg3)

/-- Every word of the three index arrays names a row of the table. -/
def InRange (c : Dev nD) : Prop :=
  (∀ i, (wa m c i).toNat < 16384) ∧ (∀ i, (wp m c i).toNat < 16384) ∧ (∀ i, (wn m c i).toNat < 16384)

/-- The per-triplet array: each triplet's margin ranking. -/
def outArr (c : Dev nD) : S262144.Idx → EReal := fun i =>
  lossAt (rowOf (tbl m c) (wa m c i)) (rowOf (tbl m c) (wp m c i)) (rowOf (tbl m c) (wn m c i))

/-! ## The arrays as the region finds them -/

theorem V_v0 (c : Dev nD) : (V m c main_v0 : IVec S262144 32)
    = minsi (broadcastInDim S262144 ![] bcast_S_S262144 (id (constantI S_ 32 16383#32)))
        (maxsi (broadcastInDim S262144 ![] bcast_S_S262144 (id (constantI S_ 32 0#32))) (wa m c)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem V_v1 (c : Dev nD) : (V m c main_v1 : IVec S262144 32)
    = minsi (broadcastInDim S262144 ![] bcast_S_S262144 (id (constantI S_ 32 16383#32)))
        (maxsi (broadcastInDim S262144 ![] bcast_S_S262144 (id (constantI S_ 32 0#32))) (wp m c)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem V_v2 (c : Dev nD) : (V m c main_v2 : IVec S262144 32)
    = minsi (broadcastInDim S262144 ![] bcast_S_S262144 (id (constantI S_ 32 16383#32)))
        (maxsi (broadcastInDim S262144 ![] bcast_S_S262144 (id (constantI S_ 32 0#32))) (wn m c)) := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The table in the narrower format is the table. -/
theorem V_v3 (c : Dev nD) : (V m c main_v3 : S16384x256.Idx → EReal) = tbl m c := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- In range the clamped word is the word. -/
theorem clamped (x : IVec S262144 32) (i : S262144.Idx) (h : (x i).toNat < 16384) :
    minsi (broadcastInDim S262144 ![] bcast_S_S262144 (id (constantI S_ 32 16383#32)))
        (maxsi (broadcastInDim S262144 ![] bcast_S_S262144 (id (constantI S_ 32 0#32))) x) i = x i :=
  clip_id (x i) h

/-! ## The blocks -/

theorem idx0 : ∀ t : Fin cfg0.N, win0_0.index t (0 : Fin 1) = t.val := (by decide +kernel : ∀ t : Fin grid0.N, _)
theorem idx1 : ∀ t : Fin cfg0.N, win0_1.index t (0 : Fin 1) = t.val := (by decide +kernel : ∀ t : Fin grid0.N, _)
theorem idx2 : ∀ t : Fin cfg0.N, win0_2.index t (0 : Fin 1) = t.val := (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = t.val := (by decide +kernel : ∀ t : Fin grid0.N, _)

/-- The blocks at point t, at their literal types. -/
abbrev blkA (c : Dev nD) (t : Fin cfg0.N) : Vec Ideal S256 .i32 := iblk m c 0 t
abbrev blkP (c : Dev nD) (t : Fin cfg0.N) : Vec Ideal S256 .i32 := iblk m c 1 t
abbrev blkN (c : Dev nD) (t : Fin cfg0.N) : Vec Ideal S256 .i32 := iblk m c 2 t
abbrev blkT (c : Dev nD) (t : Fin cfg0.N) : Vec Ideal S16384x256 .bf16 := iblk m c 3 t

theorem blkA_apply (c : Dev nD) (t : Fin cfg0.N) (r : Fin 256) (ht : 256 * t.val + r.val < 262144) :
    blkA m c t (ix1 r) = (V m c main_v0 : IVec S262144 32) (ix1 ⟨256 * t.val + r.val, ht⟩) := by
  unfold blkA iblk
  rw [View.read_apply]
  show (V m c main_v0 : IVec S262144 32) _ = _
  refine congrArg (V m c main_v0 : IVec S262144 32) (funext fun a => Fin.ext ?_)
  match a with
  | ⟨0, _⟩ => show win0_0.index t 0 * 256 + 1 * r.val = 256 * t.val + r.val; rw [idx0 t]; omega

theorem blkP_apply (c : Dev nD) (t : Fin cfg0.N) (r : Fin 256) (ht : 256 * t.val + r.val < 262144) :
    blkP m c t (ix1 r) = (V m c main_v1 : IVec S262144 32) (ix1 ⟨256 * t.val + r.val, ht⟩) := by
  unfold blkP iblk
  rw [View.read_apply]
  show (V m c main_v1 : IVec S262144 32) _ = _
  refine congrArg (V m c main_v1 : IVec S262144 32) (funext fun a => Fin.ext ?_)
  match a with
  | ⟨0, _⟩ => show win0_1.index t 0 * 256 + 1 * r.val = 256 * t.val + r.val; rw [idx1 t]; omega

theorem blkN_apply (c : Dev nD) (t : Fin cfg0.N) (r : Fin 256) (ht : 256 * t.val + r.val < 262144) :
    blkN m c t (ix1 r) = (V m c main_v2 : IVec S262144 32) (ix1 ⟨256 * t.val + r.val, ht⟩) := by
  unfold blkN iblk
  rw [View.read_apply]
  show (V m c main_v2 : IVec S262144 32) _ = _
  refine congrArg (V m c main_v2 : IVec S262144 32) (funext fun a => Fin.ext ?_)
  match a with
  | ⟨0, _⟩ => show win0_2.index t 0 * 256 + 1 * r.val = 256 * t.val + r.val; rw [idx2 t]; omega

/-- The table's block is the whole table. -/
theorem blkT_eq (c : Dev nD) (t : Fin cfg0.N) : blkT m c t = tbl m c := by
  rw [← V_v3 m c]
  funext y
  unfold blkT iblk
  rw [View.read_apply]
  show (V m c main_v3 : S16384x256.Idx → EReal) _ = _
  refine congrArg (V m c main_v3 : S16384x256.Idx → EReal) (funext fun a => Fin.ext ?_)
  match a with
  | ⟨0, _⟩ => show win0_3.index t 0 * 16384 + 1 * (y 0).val = (y 0).val; rw [(idx3 t).1]; omega
  | ⟨1, _⟩ => show win0_3.index t 1 * 256 + 1 * (y 1).val = (y 1).val; rw [(idx3 t).2]; omega

/-- Entry r of what point t leaves is triplet 256 t + r's margin ranking. -/
theorem outsAt_apply (c : Dev nD) (h : InRange m c) (t : Fin cfg0.N) (r : Fin 256) (ht : 256 * t.val + r.val < 262144) :
    (outsAt0 m c t : FVec Ideal S256 .f32) (ix1 r) = outArr m c (ix1 ⟨256 * t.val + r.val, ht⟩) := by
  have ea : blkA m c t (ix1 r) = wa m c (ix1 ⟨256 * t.val + r.val, ht⟩) := by
    rw [blkA_apply m c t r ht, V_v0]; exact clamped _ _ (h.1 _)
  have ep : blkP m c t (ix1 r) = wp m c (ix1 ⟨256 * t.val + r.val, ht⟩) := by
    rw [blkP_apply m c t r ht, V_v1]; exact clamped _ _ (h.2.1 _)
  have en : blkN m c t (ix1 r) = wn m c (ix1 ⟨256 * t.val + r.val, ht⟩) := by
    rw [blkN_apply m c t r ht, V_v2]; exact clamped _ _ (h.2.2 _)
  unfold outsAt0
  refine (congrFun (out_eq (F := Ideal) c (grid0.coords t) (ms0_0 t) (hs0_0 t) (ms0_1 t) (hs0_1 t) (ms0_2 t) (hs0_2 t) (ms0_3 t) (hs0_3 t) (ms0_4 t) (hs0_4 t)
    (blkA m c t) (blkP m c t) (blkN m c t) (blkT m c t)) (ix1 r)).trans ?_
  rw [body_apply (blkA m c t) (blkP m c t) (blkN m c t) (blkT m c t) r (by rw [ea]; exact h.1 _) (by rw [ep]; exact h.2.1 _) (by rw [en]; exact h.2.2 _),
    ea, ep, en, blkT_eq]
  rfl

/-! ## The per-triplet array after the region -/

theorem flushed_eq (c : Dev nD) (h : InRange m c) (t : Fin cfg0.N) (hf : (cfg0.win 4).flush t = true) :
    (dats m 0 c).flushed 4 t = ((cfg0.win 4).blk t).view.read (Elt Ideal) (outArr m c) := by
  show (cfg0.win 4).cut (grid0.coords t) ((dats m 0 c).after 4 t) = _
  rw [after0_4]
  funext y
  have hy : (y 0).val < 256 := (y 0).isLt
  have ht : t.val < 1024 := lt_of_lt_of_eq t.isLt N_0
  have e1 : (cfg0.win 4).xinj (grid0.coords t) y = ix1 ⟨(y 0).val, hy⟩ := funext fun a => by
    match a with
    | ⟨0, _⟩ => rfl
  show (outsAt0 m c t : FVec Ideal S256 .f32) ((cfg0.win 4).xinj (grid0.coords t) y) = _
  rw [e1, outsAt_apply m c h t ⟨(y 0).val, hy⟩ (by show 256 * t.val + (y 0).val < 262144; omega), View.read_apply]
  refine congrArg (outArr m c) (funext fun a => Fin.ext ?_)
  match a with
  | ⟨0, _⟩ => show 256 * t.val + (y 0).val = win0_4.index t 0 * 256 + 1 * (y 0).val; rw [idx4 t]; omega

/-- The 1024 blocks of 256 tile the array: triplet i lies in block i / 256. So the array ends holding every
    triplet's margin ranking. -/
theorem final_out (c : Dev nD) (h : InRange m c) : (dats m 0 c).arrAt 4 cfg0.N = outArr m c :=
  (dats m 0 c).arrAt_eq_of_cover 4 (outArr m c) (flushed_eq m c h) fun i => by
    have hi : (i 0).val < 262144 := (i 0).isLt
    have hN : cfg0.N = 1024 := N_0
    let t' : Fin cfg0.N := ⟨(i 0).val / 256, lt_of_lt_of_eq (by omega) hN.symm⟩
    refine ⟨t', flush0_4 t', ?_⟩
    show i ∈ ((View.whole main_v4).slice (win0_4.rect t')).set
    rw [View.set_slice_whole, Rect.mem_set_unit]
    intro a
    match a with
    | ⟨0, _⟩ =>
      show win0_4.index t' 0 * 256 ≤ (i 0 : Nat) ∧ (i 0 : Nat) < win0_4.index t' 0 * 256 + 256
      rw [idx4 t']
      show (i 0).val / 256 * 256 ≤ (i 0 : Nat) ∧ (i 0 : Nat) < (i 0).val / 256 * 256 + 256
      omega

/-! ## The lines after the region, and the run -/

/-- The entries added up from zero, over 262144. -/
def meanOf (v : S262144.Idx → EReal) : S_.Idx → EReal :=
  Host.divf (F := Ideal) (Host.reduceAdd (F := Ideal) v (constant S_ .f32 0x00000000#32) reducesTo_S262144_S_d0 h_S_)
    (constant S_ .f32 0x48800000#32)

theorem tail_eq (c : Dev nD) (h : InRange m c) :
    Pipeline.afterTail₀ cfgs (dats m) 0 (V0 m) [hostOps1] c main_v6 = meanOf (outArr m c) := by
  unfold Pipeline.afterTail₀
  show StableHlo.after hostOps1 _ (Proc.devRef .tc main_v6) = _
  after_results
  rw [(Pipeline.withArrays_arr spec0 launch0.win.arr_inj c _ _ 4).trans (final_out m c h)]
  rfl

/-- The kernel's program, run from a memory whose index words are all in range: it terminates with the mean of the
    per-triplet margin rankings in its result and its arguments as they were. -/
theorem run (hr : ∀ c, InRange m c) :
    θ_run defs (onTc (τ := τ) (main (F := Ideal))) ⟨m, fun _ => 0, ρ⟩ fun r => ∀ c : Dev nD,
      r.2.mem ((c.tc : Thread nD τ).loc main_v6) = meanOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.RefValue.lean ====
/-
  The reference's per-triplet array. Under the index range the wrapped word is the word itself and the gather's
  clamp does nothing, so each of the three gathers reads, at (t, k), the table's row the t-th word names at column k;
  the operations after the gathers then spell the margin ranking of the two cosines, entry by entry.
-/
import proofs.«419723_j42365557408211_3_alg».proof.Proof.Gen.ReferenceIdeal.Read
import proofs.«419723_j42365557408211_3_alg».proof.Proof.Spec
import proofs.«419723_j42365557408211_3_alg».proof.Proof.LibGatherRows

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo Cert.Triplet

/-- The printed gather is the take of rows by a column of start indices. -/
theorem gather_is_col : gather_S16384x256_S262144x1_S262144x256_1_0_n_n_0_1_1256 = GatherRows.colDims 16384 256 262144 gather_S16384x256_S262144x1_S262144x256_1_0_n_n_0_1_1256_wf := rfl

/-- A word in range is not wrapped (the anchor's words). -/
theorem wrapped_a (x : IVec S262144 32) (i : S262144.Idx) (h : (x i).toNat < 16384) : val_main_v4 (F := Ideal) x i = x i := by
  rw [val_main_v4_apply, val_main_v1_apply, val_main_v3_apply, val_main_v0_apply, val_main_v2_apply, val_main_c_apply, val_main_c_0_apply]
  exact wrap_id _ h
/-- The positive's words. -/
theorem wrapped_p (x : IVec S262144 32) (i : S262144.Idx) (h : (x i).toNat < 16384) : val_main_v11 (F := Ideal) x i = x i := by
  rw [val_main_v11_apply, val_main_v8_apply, val_main_v10_apply, val_main_v7_apply, val_main_v9_apply, val_main_c_1_apply, val_main_c_2_apply]
  exact wrap_id _ h
/-- The negative's words. -/
theorem wrapped_n (x : IVec S262144 32) (i : S262144.Idx) (h : (x i).toNat < 16384) : val_main_v18 (F := Ideal) x i = x i := by
  rw [val_main_v18_apply, val_main_v15_apply, val_main_v17_apply, val_main_v14_apply, val_main_v16_apply, val_main_c_3_apply, val_main_c_4_apply]
  exact wrap_id _ h

/-- A gathered entry is the named row's entry: the start index at (t, 0) is the t-th word, in range, so the clamp
    is the identity. -/
theorem row_of_word (X : S16384x256.Idx → EReal) (col : IVec S262144x1 32) (w : BitVec 32) (t : Fin 262144) (k : Fin 256)
    (hcol : col (ix2 t (0 : Fin 1)) = w) (h : w.toNat < 16384) :
    Host.gather gather_S16384x256_S262144x1_S262144x256_1_0_n_n_0_1_1256 X col (ix2 t k) = rowOf X w k := by
  rw [gather_is_col, GatherRows.gather_col_apply (by decide), rowOf_apply X w h]
  refine congrArg X ?_
  show ix2 _ _ = ix2 _ _
  congr 1
  apply Fin.ext
  show min (col (ix2 t (0 : Fin 1))).toInt.toNat (16384 - 1) = w.toNat
  rw [hcol]
  exact clamp_pos w h

theorem col_a (x : IVec S262144 32) (t : Fin 262144) (h : (x (ix1 t)).toNat < 16384) :
    val_main_v5 (F := Ideal) x (ix2 t (0 : Fin 1)) = x (ix1 t) := by
  rw [val_main_v5_apply, show idx_main_v5 (ix2 t (0 : Fin 1)) = ix1 t from funext fun a => by match a with | ⟨0, _⟩ => rfl]
  exact wrapped_a x _ h
theorem col_p (x : IVec S262144 32) (t : Fin 262144) (h : (x (ix1 t)).toNat < 16384) :
    val_main_v12 (F := Ideal) x (ix2 t (0 : Fin 1)) = x (ix1 t) := by
  rw [val_main_v12_apply, show idx_main_v12 (ix2 t (0 : Fin 1)) = ix1 t from funext fun a => by match a with | ⟨0, _⟩ => rfl]
  exact wrapped_p x _ h
theorem col_n (x : IVec S262144 32) (t : Fin 262144) (h : (x (ix1 t)).toNat < 16384) :
    val_main_v19 (F := Ideal) x (ix2 t (0 : Fin 1)) = x (ix1 t) := by
  rw [val_main_v19_apply, show idx_main_v19 (ix2 t (0 : Fin 1)) = ix1 t from funext fun a => by match a with | ⟨0, _⟩ => rfl]
  exact wrapped_n x _ h

/-- The reference's entry for triplet t: the margin ranking of the three named rows. -/
theorem ref_out (x0 : S16384x256.Idx → EReal) (x1 x2 x3 : IVec S262144 32) (t : Fin 262144)
    (h1 : (x1 (ix1 t)).toNat < 16384) (h2 : (x2 (ix1 t)).toNat < 16384) (h3 : (x3 (ix1 t)).toNat < 16384) :
    val_main_v45 (F := Ideal) x0 x1 x2 x3 (ix1 t)
      = lossAt (rowOf x0 (x1 (ix1 t))) (rowOf x0 (x2 (ix1 t))) (rowOf x0 (x3 (ix1 t))) := by
  have ga : ∀ k : Fin 256, val_main_v6 (F := Ideal) x0 x1 (ix2 t k) = rowOf x0 (x1 (ix1 t)) k := fun k =>
    row_of_word x0 _ _ t k (col_a x1 t h1) h1
  have gp : ∀ k : Fin 256, val_main_v13 (F := Ideal) x0 x2 (ix2 t k) = rowOf x0 (x2 (ix1 t)) k := fun k =>
    row_of_word x0 _ _ t k (col_p x2 t h2) h2
  have gn : ∀ k : Fin 256, val_main_v20 (F := Ideal) x0 x3 (ix2 t k) = rowOf x0 (x3 (ix1 t)) k := fun k =>
    row_of_word x0 _ _ t k (col_n x3 t h3) h3
  have ei : ∀ k : Fin 256, idx_main_v28 (ix1 t) k = ix2 t k := fun k =>
    funext fun a => by match a with | ⟨0, _⟩ => rfl | ⟨1, _⟩ => rfl
  have ei38 : ∀ k : Fin 256, idx_main_v38 (ix1 t) k = ix2 t k := ei
  have ei0 : ∀ k : Fin 256, idx_main_call0_v1 (ix1 t) k = ix2 t k := ei
  have ei1 : ∀ k : Fin 256, idx_main_call1_v1 (ix1 t) k = ix2 t k := ei
  have ei2 : ∀ k : Fin 256, idx_main_call2_v1 (ix1 t) k = ix2 t k := ei
  have ei3 : ∀ k : Fin 256, idx_main_call3_v1 (ix1 t) k = ix2 t k := ei
  rw [val_main_v45_apply, val_main_v43_apply, val_main_v41_apply, val_main_v30_apply, val_main_v40_apply,
    val_main_v28_apply, val_main_v38_apply, val_main_v29_apply, val_main_v39_apply,
    val_main_v23_apply, val_main_v26_apply, val_main_v33_apply, val_main_v36_apply,
    val_main_v21_apply, val_main_v24_apply, val_main_v31_apply, val_main_v34_apply,
    val_main_call0_v1_apply, val_main_call1_v1_apply, val_main_call2_v1_apply, val_main_call3_v1_apply,
    val_main_v22_apply, val_main_v25_apply, val_main_v32_apply, val_main_v35_apply, val_main_v42_apply, val_main_v44_apply]
  simp only [val_main_v27_apply, val_main_v37_apply, val_main_call0_v0_apply, val_main_call1_v0_apply,
    val_main_call2_v0_apply, val_main_call3_v0_apply, val_main_cst_apply, val_main_cst_5_apply, val_main_cst_6_apply,
    val_main_cst_7_apply, val_main_cst_8_apply, val_main_cst_9_apply, val_main_cst_10_apply, val_main_cst_11_apply,
    val_main_call0_cst_apply, val_main_call1_cst_apply, val_main_call2_cst_apply, val_main_call3_cst_apply, ei, ei38, ei0, ei1, ei2, ei3, ga, gp, gn,
    Ideal.maximumf_def, Ideal.subf_def, Ideal.addf_def, Ideal.mulf_def, Ideal.hostDivf_def, Ideal.hostUnary_sqrt_def,
    Ideal.ofBits_def, Ideal.ofBits_zero_f32, zero_add]
  unfold lossAt cosOf
  rw [Ideal.ofBits_zero_f32]

/-- The result is the per-triplet array's entries added up from zero, over 262144 — whatever that array is known to be. -/
theorem ref_mean (x0 : S16384x256.Idx → EReal) (x1 x2 x3 : IVec S262144 32) (G : S262144.Idx → EReal)
    (hG : val_main_v45 (F := Ideal) x0 x1 x2 x3 = G) :
    val_main_v47 (F := Ideal) x0 x1 x2 x3
      = Host.divf (F := Ideal) (Host.reduceAdd (F := Ideal) G (constant S_ .f32 0x00000000#32) reducesTo_S262144_S_d0 h_S_)
          (constant S_ .f32 0x48800000#32) := by
  unfold val_main_v47 val_main_v46 val_main_cst_12 val_main_cst_13
  rw [hG]

end Cert.ReferenceIdeal.RefValue

end
-- ==== Proof.PreRanges.lean ====
/-
  What the precondition says of the three index arrays: it is a conjunction, and each of its last three conjuncts
  is an all-of over one array of "0 ≤ word" and "word < 16384" (signed); so every word of every array is below 16384
  as a natural number.
-/
import proofs.«419723_j42365557408211_3_alg».proof.Pre_finite_inputs
import proofs.«419723_j42365557408211_3_alg».proof.Proof.Gen.Pre_finite_inputs
import proofs.«419723_j42365557408211_3_alg».proof.Proof.Spec
import Idealize.ShloMosaic.Lib.ReduceAll
import Idealize.ShloMosaic.Lib.Affine

noncomputable section

namespace Cert.Triplet.Pre

open Idealize.ShloMosaic Idealize.ShloMosaic.ValueIdx Cert.Pre_finite_inputs Cert.Triplet

instance : Subsingleton S_.Idx := ⟨fun a b => funext fun d => d.elim0⟩

variable {F : FTy → Type} [FloatOps F]

/-- One array's conjunct read at a word. -/
theorem word_lt (x : IVec S262144 32) (c : IVec S_ 1)
    (e : Host.reduce IntOp.andi (andi (cmpi .sge x (broadcastInDim S262144 ![] Facts.bcast_S_S262144 (constantI S_ 32 0#32)))
        (cmpi .slt x (broadcastInDim S262144 ![] Facts.bcast_S_S262144 (constantI S_ 32 16384#32)))) c
        Facts.reducesTo_S262144_S_d0 Facts.h_S_ ix0 = 1#1) (i : S262144.Idx) : (x i).toNat < 16384 := by
  have hi := Host.reduce_andi_all _ _ _ _ _ e i
  obtain ⟨h0, h1⟩ := IntOp.andi_eq_one.1 hi
  exact toNat_lt_of_cmp (x i) h0 h1

/-- Every word of the three index arrays is in range. -/
theorem ranges (x0 : FVec F S16384x256 .f32) (x1 x2 x3 : IVec S262144 32)
    (h : Cert.Pre_finite_inputs.fn (F := F) x0 x1 x2 x3 = fun _ => 1#1) :
    (∀ i, (x1 i).toNat < 16384) ∧ (∀ i, (x2 i).toNat < 16384) ∧ (∀ i, (x3 i).toNat < 16384) := by
  have e := congrFun h ix0
  unfold Cert.Pre_finite_inputs.fn Cert.Pre_finite_inputs.fn_part1 at e
  dsimp only at e
  obtain ⟨e12, e3⟩ := IntOp.andi_eq_one.1 e
  obtain ⟨e1', e2⟩ := IntOp.andi_eq_one.1 e12
  obtain ⟨_, e1⟩ := IntOp.andi_eq_one.1 e1'
  exact ⟨word_lt x1 _ e1, word_lt x2 _ e2, word_lt x3 _ e3⟩

end Cert.Triplet.Pre

end
-- ==== Proof.lean ====
/-
  A margin ranking loss over triplets of rows of a table, two ways.

  The table is [16384 × 256]; three arrays of 262144 words name, triplet by triplet, an anchor row a, a positive row p
  and a negative row n. A triplet's entry is max (cos (a, p) - cos (a, n) + margin, 0) with
  cos (x, y) = (Σ x·y) / (max (√Σ x², ε) · max (√Σ y², ε)), and the result is the entries' sum over 262144.

  One program takes the rows by a gather. The other clamps each word into [0, 16383], and for 256 triplets at a time
  forms the three rows as the product of a 0/1 selector with the table, 2048 table rows at a time: a selector row is 1
  in the one column the word names and 0 elsewhere, so of the eight partial products exactly one carries the named row
  and the rest are zero. Where every word lies in [0, 16384) the gather's wrap of negative words, its clamp and the other
  program's clamp all leave the word alone, both programs read the same rows, and every operation after the rows is the
  same on both sides — a sum is a sum and a change of float format is the identity on the extended reals — so the
  per-triplet arrays agree entry by entry and so do their means.

  The three frames are the programs' runs with the values dropped; there is nothing to preserve (no operation was
  rewritten); the last conjunct puts the two runs side by side over the same per-triplet array.
-/
import proofs.«419723_j42365557408211_3_alg».proof.Defs
import proofs.«419723_j42365557408211_3_alg».proof.Proof.Gen.Kernel
import proofs.«419723_j42365557408211_3_alg».proof.Proof.Gen.Kernel.Skeleton
import proofs.«419723_j42365557408211_3_alg».proof.Proof.Gen.Kernel.Launch
import proofs.«419723_j42365557408211_3_alg».proof.Proof.Gen.Kernel.Points
import proofs.«419723_j42365557408211_3_alg».proof.Proof.Gen.Kernel.Frame
import proofs.«419723_j42365557408211_3_alg».proof.Proof.Gen.KernelIdeal
import proofs.«419723_j42365557408211_3_alg».proof.Proof.Gen.KernelIdeal.Skeleton
import proofs.«419723_j42365557408211_3_alg».proof.Proof.Gen.KernelIdeal.Launch
import proofs.«419723_j42365557408211_3_alg».proof.Proof.Gen.KernelIdeal.Points
import proofs.«419723_j42365557408211_3_alg».proof.Proof.Gen.KernelIdeal.Frame
import proofs.«419723_j42365557408211_3_alg».proof.Proof.Gen.ReferenceIdeal
import proofs.«419723_j42365557408211_3_alg».proof.Proof.Gen.ReferenceIdeal.Run
import proofs.«419723_j42365557408211_3_alg».proof.Proof.Gen.ReferenceIdeal.Read
import proofs.«419723_j42365557408211_3_alg».proof.Proof.Gen.Pre_finite_inputs
import proofs.«419723_j42365557408211_3_alg».proof.Proof.KernelValue
import proofs.«419723_j42365557408211_3_alg».proof.Proof.RefValue
import proofs.«419723_j42365557408211_3_alg».proof.Proof.PreRanges
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The gather program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the table and the words, all words in range, both programs end with the mean of the
    same per-triplet array: entry by entry the gather program's array is the margin ranking of the named rows, which is
    what the selector program's blocks tile. -/
theorem algebraic : Cert.algebraic_KernelIdeal_ReferenceIdeal := by
  intro m ρ m' ρ' hpre hagree
  have hr : ∀ c, Cert.KernelIdeal.Hand.InRange m c := fun c => Cert.Triplet.Pre.ranges _ _ _ _ (hpre c)
  refine ⟨fun c => Cert.KernelIdeal.Hand.meanOf (Cert.KernelIdeal.Hand.outArr m c), Cert.KernelIdeal.Hand.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2]
  have e : Cert.ReferenceIdeal.Read.val_main_v45 (F := Ideal) (Cert.KernelIdeal.Hand.tbl m c) (Cert.KernelIdeal.Hand.wa m c)
      (Cert.KernelIdeal.Hand.wp m c) (Cert.KernelIdeal.Hand.wn m c) = Cert.KernelIdeal.Hand.outArr m c := funext fun i => by
    obtain ⟨t, rfl⟩ : ∃ t, i = ValueIdx.ix1 t := ⟨i 0, ValueIdx.eq_ix1 i⟩
    exact Cert.ReferenceIdeal.RefValue.ref_out _ _ _ _ t ((hr c).1 _) ((hr c).2.1 _) ((hr c).2.2 _)
  exact Cert.ReferenceIdeal.RefValue.ref_mean (Cert.KernelIdeal.Hand.tbl m c) (Cert.KernelIdeal.Hand.wa m c)
    (Cert.KernelIdeal.Hand.wp m c) (Cert.KernelIdeal.Hand.wn m c) (Cert.KernelIdeal.Hand.outArr m c) e

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
